-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x4096 : Shape := ⟨3, ![16, 128, 4096]⟩
abbrev S16x4096x16 : Shape := ⟨3, ![16, 4096, 16]⟩
abbrev S_ : Shape := ⟨0, ![]⟩

class Facts : Prop where
  bcast_S_S16x128x4096 : S_.BroadcastsInDim S16x128x4096 (![] : Fin 0 → Fin S16x128x4096.rank)
  reducesTo_S16x128x4096_S_d0_1_2 : S16x128x4096.ReducesTo [0, 1, 2] S_
  h_S_ : 0 < S_.numel
  bcast_S_S16x4096x16 : S_.BroadcastsInDim S16x4096x16 (![] : Fin 0 → Fin S16x4096x16.rank)
  reducesTo_S16x4096x16_S_d0_1_2 : S16x4096x16.ReducesTo [0, 1, 2] S_

variable [Facts]

def fn {F : FTy → Type} [FloatOps F] (main_arg0 : FVec F S16x128x4096 .f32) (main_arg1 : IVec S16x4096x16 32) : IVec S_ 1 :=
  let main_v0 : FVec F S16x128x4096 .f32 := Host.absf main_arg0
  let main_cst : FVec F S_ .f32 := constant S_ .f32 0x7F800000#32
  let main_v1 : FVec F S16x128x4096 .f32 := broadcastInDim S16x128x4096 ![] bcast_S_S16x128x4096 main_cst
  let main_v2 : IVec S16x128x4096 1 := cmpf .olt main_v0 main_v1
  let main_c : IVec S_ 1 := constantI S_ 1 1#1
  let main_v3 : IVec S_ 1 := (fun x v => Host.reduce IntOp.andi x v reducesTo_S16x128x4096_S_d0_1_2 h_S_) main_v2 main_c
  let main_c_0 : IVec S_ 32 := constantI S_ 32 0#32
  let main_v4 : IVec S16x4096x16 32 := broadcastInDim S16x4096x16 ![] bcast_S_S16x4096x16 main_c_0
  let main_v5 : IVec S16x4096x16 1 := cmpi .sge main_arg1 main_v4
  let main_c_1 : IVec S_ 1 := constantI S_ 1 1#1
  let main_v6 : IVec S_ 1 := (fun x v => Host.reduce IntOp.andi x v reducesTo_S16x4096x16_S_d0_1_2 h_S_) main_v5 main_c_1
  let main_v7 : IVec S_ 1 := andi main_v3 main_v6
  main_v7
-- ==== Kernel.lean ====
abbrev S16x128x4096 : Shape := ⟨3, ![16, 128, 4096]⟩
abbrev S16x4096x16 : Shape := ⟨3, ![16, 4096, 16]⟩
abbrev S_ : Shape := ⟨0, ![]⟩
abbrev S16x16x4096 : Shape := ⟨3, ![16, 16, 4096]⟩
abbrev S16x256x4096 : Shape := ⟨3, ![16, 256, 4096]⟩
abbrev S1x256x4096 : Shape := ⟨3, ![1, 256, 4096]⟩
abbrev S1x128x4096 : Shape := ⟨3, ![1, 128, 4096]⟩
abbrev S1x16x512 : Shape := ⟨3, ![1, 16, 512]⟩
abbrev S1x128x512 : Shape := ⟨3, ![1, 128, 512]⟩
abbrev S256x4096 : Shape := ⟨2, ![256, 4096]⟩
abbrev S4096x512 : Shape := ⟨2, ![4096, 512]⟩
abbrev S128x512 : Shape := ⟨2, ![128, 512]⟩
abbrev S1x1x512 : Shape := ⟨3, ![1, 1, 512]⟩
abbrev S512 : Shape := ⟨1, ![512]⟩
abbrev S1x512 : Shape := ⟨2, ![1, 512]⟩
abbrev S256x512 : Shape := ⟨2, ![256, 512]⟩

abbrev nBuf : Space → Nat
  | .hbm => 17
  | .vmem => 8
  | .smem => 0
  | _ => 0

abbrev bufTy : (tb : Table) → Fin (tcTables nBuf tb) → BufTy
  | .hbm, ⟨0, _⟩ => ⟨S16x128x4096, .f32⟩
  | .hbm, ⟨1, _⟩ => ⟨S16x4096x16, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16x4096x16, .i32⟩
  | .hbm, ⟨6, _⟩ => ⟨S16x4096x16, .i32⟩
  | .hbm, ⟨7, _⟩ => ⟨S_, .i32⟩
  | .hbm, ⟨8, _⟩ => ⟨S16x4096x16, .i32⟩
  | .hbm, ⟨9, _⟩ => ⟨S16x4096x16, .i32⟩
  | .hbm, ⟨10, _⟩ => ⟨S16x16x4096, .i32⟩
  | .hbm, ⟨11, _⟩ => ⟨S16x128x4096, .bf16⟩
  | .hbm, ⟨12, _⟩ => ⟨S16x128x4096, .f32⟩
  | .hbm, ⟨13, _⟩ => ⟨S16x128x4096, .f32⟩
  | .hbm, ⟨14, _⟩ => ⟨S16x128x4096, .bf16⟩
  | .hbm, ⟨15, _⟩ => ⟨S16x256x4096, .bf16⟩
  | .hbm, ⟨16, _⟩ => ⟨S16x128x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x128x4096, .f32⟩
  | .local _ .vmem, ⟨3, _⟩ => ⟨S1x128x4096, .f32⟩
  | .local _ .vmem, ⟨4, _⟩ => ⟨S1x16x512, .i32⟩
  | .local _ .vmem, ⟨5, _⟩ => ⟨S1x16x512, .i32⟩
  | .local _ .vmem, ⟨6, _⟩ => ⟨S1x128x512, .f32⟩
  | .local _ .vmem, ⟨7, _⟩ => ⟨S1x128x512, .f32⟩
  | _, _ => ⟨S16x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_off1 (k0_t1 : Fin k0_t1_loop.trips) : Fin 3 → Nat :=
  let c0_8 : Index := 0#32
  let c0_i32 : BitVec 32 := 0#32
  let c1_i32 : BitVec 32 := 1#32
  let arg6 : BitVec 32 := Scf.iv c0_i32 c1_i32 k0_t1
  let v15 : Index := Scalar.indexCast arg6
  let c0_9 : Index := 0#32
  ![0, v15.toNat, 0]
def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off2 (i : grid0.Coords) : Fin 3 → Nat :=
  let c0_3 : Index := 0#32
  let c0_4 : Index := 0#32
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  ![0, 0, v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x4096x16 : S_.BroadcastsInDim S16x4096x16 (![] : Fin 0 → Fin S16x4096x16.rank)
  transposes_S16x4096x16_S16x16x4096_0_2_1 : S16x4096x16.Transposes [0, 2, 1] S16x16x4096
  bitsLt_bf16_f32 : FTy.bits .bf16 < FTy.bits .f32
  concatenates_S16x128x4096_S16x128x4096_S16x256x4096_d1 : Shape.Concatenates [S16x128x4096, S16x128x4096] S16x256x4096 1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  iota_S4096x512_d0_w32 : S4096x512.Iotas .tc 32 [0]
  h_S1x1x512 : 0 < S1x1x512.numel
  shapeCasts_S1x1x512_S512 : S1x1x512.ShapeCasts S512
  shapeCasts_S512_S1x512 : S512.ShapeCasts S1x512
  broadcasts_S1x512_S4096x512 : S1x512.Broadcasts S4096x512
  natLt_1_32 : 1 < 32
  slices_S256x512_o0_0_S128x512 : S256x512.Slices ![0, 0] S128x512
  slices_S256x512_o128_0_S128x512 : S256x512.Slices ![128, 0] S128x512
  h_S1x128x512 : 0 < S1x128x512.numel
  shapeCasts_S1x128x512_S128x512 : S1x128x512.ShapeCasts S128x512
  inb_S1x128x512_S1x128x512_0_0_0 : ∀ a, (![0, 0, 0] : Fin 3 → Nat) a + S1x128x512.size a ≤ S1x128x512.size a
  shapeCasts_S128x512_S1x128x512 : S128x512.ShapeCasts S1x128x512
  dot_S256x4096_S4096x512_S256x512_1_0_0_1_n_n_wf : DotDims.WF S256x4096 S4096x512 S256x512 [1] [0] [0] [1] [] []
  hrank0 : 0 < grid0.rank
  k0_t1_ok : k0_t1_loop.OK
  k0_off1_inb : ∀ k0_t1 : Fin k0_t1_loop.trips, ∀ a, (k0_off1 k0_t1) a + S1x1x512.size a ≤ S1x16x512.size a
  k0_mult1_dvd : ∀ i : grid0.Coords, 128 ∣ (k0_mult1 i).toNat
  k0_off2_inb : ∀ i : grid0.Coords, ∀ a, (k0_off2 i) a + S1x128x512.size a ≤ S1x128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x4096.size a
  hwx0_0 : ∀ i : grid0.Coords, EltTy.bits .bf16 = 32 ∨ (Rect.block (s := S16x256x4096) S1x256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S16x128x4096.size a
  hwx0_1 : ∀ i : grid0.Coords, EltTy.bits .f32 = 32 ∨ (Rect.block (s := S16x128x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S16x16x4096.size a
  hwx0_2 : ∀ i : grid0.Coords, EltTy.bits .i32 = 32 ∨ (Rect.block (s := S16x16x4096) S1x16x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S16x128x4096.size a
  hwx0_3 : ∀ i : grid0.Coords, EltTy.bits .f32 = 32 ∨ (Rect.block (s := S16x128x4096) S1x128x512.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v6) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x4096 : Shape := ⟨3, ![16, 128, 4096]⟩
abbrev S16x4096x16 : Shape := ⟨3, ![16, 4096, 16]⟩
abbrev S16x4096x128 : Shape := ⟨3, ![16, 4096, 128]⟩
abbrev S16 : Shape := ⟨1, ![16]⟩
abbrev S16x1x1 : Shape := ⟨3, ![16, 1, 1]⟩
abbrev S_ : Shape := ⟨0, ![]⟩
abbrev S16x4096x16x1 : Shape := ⟨4, ![16, 4096, 16, 1]⟩
abbrev S16x4096x16x2 : Shape := ⟨4, ![16, 4096, 16, 2]⟩
abbrev S16x4096x16x128 : Shape := ⟨4, ![16, 4096, 16, 128]⟩

abbrev nBuf : Space → Nat
  | .hbm => 28
  | .vmem => 0
  | .smem => 0
  | _ => 0

abbrev bufTy : (tb : Table) → Fin (tcTables nBuf tb) → BufTy
  | .hbm, ⟨0, _⟩ => ⟨S16x128x4096, .f32⟩
  | .hbm, ⟨1, _⟩ => ⟨S16x4096x16, .i32⟩
  | .hbm, ⟨2, _⟩ => ⟨S16x4096x128, .f32⟩
  | .hbm, ⟨3, _⟩ => ⟨S16, .i32⟩
  | .hbm, ⟨4, _⟩ => ⟨S16x1x1, .i32⟩
  | .hbm, ⟨5, _⟩ => ⟨S_, .i32⟩
  | .hbm, ⟨6, _⟩ => ⟨S16x1x1, .i32⟩
  | .hbm, ⟨7, _⟩ => ⟨S16x1x1, .i1⟩
  | .hbm, ⟨8, _⟩ => ⟨S_, .i32⟩
  | .hbm, ⟨9, _⟩ => ⟨S16x1x1, .i32⟩
  | .hbm, ⟨10, _⟩ => ⟨S16x1x1, .i32⟩
  | .hbm, ⟨11, _⟩ => ⟨S16x1x1, .i32⟩
  | .hbm, ⟨12, _⟩ => ⟨S_, .i32⟩
  | .hbm, ⟨13, _⟩ => ⟨S16x4096x16, .i32⟩
  | .hbm, ⟨14, _⟩ => ⟨S16x4096x16, .i1⟩
  | .hbm, ⟨15, _⟩ => ⟨S_, .i32⟩
  | .hbm, ⟨16, _⟩ => ⟨S16x4096x16, .i32⟩
  | .hbm, ⟨17, _⟩ => ⟨S16x4096x16, .i32⟩
  | .hbm, ⟨18, _⟩ => ⟨S16x4096x16, .i32⟩
  | .hbm, ⟨19, _⟩ => ⟨S16x4096x16, .i32⟩
  | .hbm, ⟨20, _⟩ => ⟨S16x4096x16x1, .i32⟩
  | .hbm, ⟨21, _⟩ => ⟨S16x4096x16x1, .i32⟩
  | .hbm, ⟨22, _⟩ => ⟨S16x4096x16x2, .i32⟩
  | .hbm, ⟨23, _⟩ => ⟨S16x4096x16x128, .f32⟩
  | .hbm, ⟨24, _⟩ => ⟨S_, .f32⟩
  | .hbm, ⟨25, _⟩ => ⟨S16x4096x128, .f32⟩
  | .hbm, ⟨26, _⟩ => ⟨S16x128x4096, .f32⟩
  | .hbm, ⟨27, _⟩ => ⟨S16x128x4096, .f32⟩
  | _, _ => ⟨S16x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  transposes_S16x128x4096_S16x4096x128_0_2_1 : S16x128x4096.Transposes [0, 2, 1] S16x4096x128
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S_S16x4096x16 : S_.BroadcastsInDim S16x4096x16 (![] : Fin 0 → Fin S16x4096x16.rank)
  bcast_S16x1x1_S16x4096x16_0_1_2 : S16x1x1.BroadcastsInDim S16x4096x16 (![0, 1, 2] : Fin 3 → Fin S16x4096x16.rank)
  bcast_S16x4096x16_S16x4096x16x1_0_1_2 : S16x4096x16.BroadcastsInDim S16x4096x16x1 (![0, 1, 2] : Fin 3 → Fin S16x4096x16x1.rank)
  concatenates_S16x4096x16x1_S16x4096x16x1_S16x4096x16x2_d3 : Shape.Concatenates [S16x4096x16x1, S16x4096x16x1] S16x4096x16x2 3
  reducesTo_S16x4096x16x128_S16x4096x128_d2 : S16x4096x16x128.ReducesTo [2] S16x4096x128
  h_S_ : 0 < S_.numel
  transposes_S16x4096x128_S16x128x4096_0_2_1 : S16x4096x128.Transposes [0, 2, 1] S16x128x4096
  gather_S16x4096x128_S16x4096x16x2_S16x4096x16x128_3_01_n_n_01_3_11128_wf : GatherDims.WF S16x4096x128 S16x4096x16x2 S16x4096x16x128 [3] [0, 1] [] [0, 1] [] 3 ![1, 1, 128]

variable [Facts₀]

def gather_S16x4096x128_S16x4096x16x2_S16x4096x16x128_3_01_n_n_01_3_11128 : GatherDims S16x4096x128 S16x4096x16x2 S16x4096x16x128 where
  offsetDims := [3]
  collapsedSliceDims := [0, 1]
  operandBatchingDims := []
  startIndicesBatchingDims := []
  startIndexMap := [0, 1]
  indexVectorDim := 3
  sliceSizes := ![1, 1, 128]
  wf := gather_S16x4096x128_S16x4096x16x2_S16x4096x16x128_3_01_n_n_01_3_11128_wf

class Facts : Prop extends Facts₀ where

variable [Facts]
-- ==== Proof.Spec.lean ====
/-
  The function both programs compute, stated once over literal shapes.

  For a batch `b`, a channel `c` and a node `n`, the result is the larger of `x[b, c, n]` and the largest
  `x[b, c, col (nb[b, n, k])]` over the sixteen neighbour slots `k`, where `col w` is the column a neighbour word
  selects: the word read as a signed integer, a negative one taken to `0`, one above `4095` taken to `4095`.
  The largest of sixteen extended reals is written as the supremum over `Fin 16`; a running maximum started at
  `⊥` reaches it after sixteen steps (`runMax_sixteen`).
-/
import Idealize.ShloMosaic.PureOps.Ideal
import Idealize.ShloMosaic.Lib.ValueIdx

noncomputable section

namespace Cert.NeighborMax

open Idealize.ShloMosaic Idealize.ShloMosaic.ValueIdx

/-- The column a neighbour word selects: its signed value, clamped into `[0, 4095]`. -/
def col (w : BitVec 32) : Fin 4096 := ⟨min w.toInt.toNat 4095, by omega⟩

theorem col_val (w : BitVec 32) : (col w).val = min w.toInt.toNat 4095 := rfl

/-- The result at batch `b`, channel `c`, node `n`. -/
def nbMaxAt (x : FVec Ideal ⟨3, ![16, 128, 4096]⟩ .f32) (nb : IVec ⟨3, ![16, 4096, 16]⟩ 32)
    (b : Fin 16) (c : Fin 128) (n : Fin 4096) : EReal :=
  max (Finset.univ.sup fun k : Fin 16 => x (ix3 b c (col (nb (ix3 b n k))))) (x (ix3 b c n))

/-- The whole result array. -/
def nbMax (x : FVec Ideal ⟨3, ![16, 128, 4096]⟩ .f32) (nb : IVec ⟨3, ![16, 4096, 16]⟩ 32) :
    FVec Ideal ⟨3, ![16, 128, 4096]⟩ .f32 :=
  fun i => nbMaxAt x nb (i 0) (i 1) (i 2)

theorem nbMax_ix3 (x : FVec Ideal ⟨3, ![16, 128, 4096]⟩ .f32) (nb : IVec ⟨3, ![16, 4096, 16]⟩ 32)
    (b : Fin 16) (c : Fin 128) (n : Fin 4096) : nbMax x nb (ix3 b c n) = nbMaxAt x nb b c n := rfl

/-! ## A running maximum over the slots -/

/-- The running maximum before slot `k`: `⊥`, then each slot's value joined in turn. -/
def runMax (g : Fin 16 → EReal) : ℕ → EReal
  | 0 => ⊥
  | k + 1 => if h : k < 16 then max (runMax g k) (g ⟨k, h⟩) else runMax g k

theorem runMax_succ (g : Fin 16 → EReal) (k : Fin 16) : runMax g (k.val + 1) = max (runMax g k.val) (g k) := by
  rw [runMax, dif_pos k.isLt]

/-- Before slot `k` the running maximum is the supremum of the slots below `k`. -/
theorem runMax_eq_sup (g : Fin 16 → EReal) (k : ℕ) (hk : k ≤ 16) :
    runMax g k = (Finset.univ.filter fun j : Fin 16 => j.val < k).sup g := by
  induction k with
  | zero => simp [runMax]
  | succ k ih =>
    have hk' : k < 16 := hk
    rw [runMax, dif_pos hk', ih (Nat.le_of_lt hk')]
    have hset : (Finset.univ.filter fun j : Fin 16 => j.val < k + 1)
        = insert (⟨k, hk'⟩ : Fin 16) (Finset.univ.filter fun j : Fin 16 => j.val < k) := by
      ext j
      simp only [Finset.mem_filter, Finset.mem_univ, true_and, Finset.mem_insert, Fin.ext_iff]
      omega
    rw [hset, Finset.sup_insert, max_comm]

/-- After all sixteen slots the running maximum is the supremum over every slot. -/
theorem runMax_sixteen (g : Fin 16 → EReal) : runMax g 16 = Finset.univ.sup g := by
  rw [runMax_eq_sup g 16 le_rfl]
  have hall : (Finset.univ.filter fun j : Fin 16 => j.val < 16) = Finset.univ := by
    ext j
    simp [j.isLt]
  rw [hall]

end Cert.NeighborMax

end
-- ==== Proof.PreFacts.lean ====
/-
  What the stated precondition says of the two argument arrays: every entry of `x` is a real number, and every
  neighbour word is non-negative as a signed integer.

  The precondition is the conjunction of two "for all entries" tests, each printed as a reduction by `and` of a
  one-bit array down to a single bit. The conjunction being `1` gives both reductions `1`; a reduction by `and`
  over every axis that is `1` had a `1` at every entry. At an entry of `x` that bit compares `max x (-x)`, the
  absolute value, strictly below the constant word `0x7F800000`, which denotes `+∞`: an extended real whose
  absolute value is below `⊤` is neither `⊤` nor `⊥`, so it is a real. At an entry of `nb` the bit is the signed
  comparison "`0 ≤` the word", the zero word reading `0`.
-/
import proofs.«407954_j51024211476648_3_alg».proof.Pre_finite_inputs
import Idealize.ShloMosaic.Lib.ValueIdx
import Idealize.ShloMosaic.Lib.ReduceAll
import Idealize.ShloMosaic.Lib.StableHlo.Predicate

noncomputable section

namespace Cert.NeighborMax

open Idealize.ShloMosaic Idealize.ShloMosaic.ValueIdx

/-- The rank-zero shape has a single index: two of them agree at every axis because there is no axis. -/
instance subsingleton_scalarIdx : Subsingleton Cert.Pre_finite_inputs.S_.Idx :=
  ⟨fun _ _ => funext fun d => d.elim0⟩

/-- The single-precision word `0x7F800000` (sign clear, exponent all ones, fraction zero) denotes `+∞`. -/
theorem ofBits_f32_inf : Ideal.ofBits .f32 0x7F800000#32 = (⊤ : EReal) := by
  simp [Ideal.ofBits, Ideal.ieee]

/-- An extended real whose absolute value `max x (-x)` is strictly below `⊤` is a real number: at `⊤` the maximum is
    `⊤` through its first argument, at `⊥` through its second (`-⊥ = ⊤`). -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" of two extended reals, as a one-bit word, is `1` exactly when the first is below the
    second. -/
theorem cmp_olt_eq_one (a b : EReal) : Ideal.cmp .olt a b = 1#1 ↔ a < b := by
  unfold Ideal.cmp
  rw [StableHlo.Predicate.ofBool_eq_one_iff, decide_eq_true_eq]

/-- The precondition, all ones, gives: every `x` entry real, every neighbour word `≥ 0` signed. -/
theorem facts_of_pre [Cert.Pre_finite_inputs.Facts]
    (x : FVec Ideal Cert.Pre_finite_inputs.S16x128x4096 .f32) (nb : IVec Cert.Pre_finite_inputs.S16x4096x16 32)
    (h : Cert.Pre_finite_inputs.fn (F := Ideal) x nb = fun _ => 1#1) :
    (∀ i, ∃ r : ℝ, x i = (r : EReal)) ∧ (∀ j, 0 ≤ (nb j).toInt) := by
  -- the precondition's one bit, read at the scalar shape's index
  have e := congrFun h ValueIdx.ix0
  dsimp only [Cert.Pre_finite_inputs.fn] at e
  -- the last operation is the `and` of the two tests
  obtain ⟨ex, en⟩ := IntOp.andi_eq_one.1 e
  refine ⟨fun i => ?_, fun j => ?_⟩
  · -- the float test at entry `i`: `|x i| < +∞`
    have hi := Host.reduce_andi_all _ _ _ _ _ ex i
    have hc : Ideal.cmp .olt (max (x i : EReal) (-(x i : EReal))) (Ideal.ofBits .f32 0x7F800000#32) = 1#1 := hi
    rw [ofBits_f32_inf, cmp_olt_eq_one] at hc
    exact real_of_abs_lt_top _ hc
  · -- the integer test at entry `j`: the zero word is signed-below-or-equal the neighbour word
    have hj := Host.reduce_andi_all _ _ _ _ _ en j
    have hc : IntOp.cmpi .sge (nb j) (0#32) = 1#1 := hj
    rw [IntOp.cmpi_sge, show (0#32 : BitVec 32).toInt = 0 from by decide] at hc
    exact hc

end Cert.NeighborMax

end
-- ==== Proof.RefValue.lean ====
/-
  The reference's result, read operation by operation, is `nbMax` of its two arguments when every neighbour word
  is non-negative.

  The generated stages read every operation at an index but three. Those three are read here by hand: the
  concatenation that pairs a batch number with a neighbour id, the gather that reads the transposed input at such a
  pair (each component taken as a signed integer and clamped into its axis), and the maximum over the sixteen slots
  from `-∞`. With a non-negative id the wrap-around of negative ids does nothing, the batch number is below sixteen
  and so clamps to itself, and the id clamps to the column `col` names.
-/
import proofs.«407954_j51024211476648_3_alg».proof.Proof.Gen.ReferenceIdeal.Read
import proofs.«407954_j51024211476648_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.Reduce

noncomputable section

namespace Cert.NeighborMax

open Idealize.ShloMosaic Idealize.ShloMosaic.ValueIdx

/-! ## Words -/

/-- A word whose signed value is not negative is not below zero in the signed order. -/
theorem slt_zero_of_nonneg (w : BitVec 32) (h : 0 ≤ w.toInt) : IntOp.cmpi .slt w 0#32 = 0#1 := by
  have hs : w.slt 0#32 = false := by
    rw [Bool.eq_false_iff]
    intro hs
    rw [BitVec.slt_iff_toInt_lt, BitVec.toInt_zero] at hs
    omega
  unfold IntOp.cmpi
  simp only [hs]
  rfl

/-- The word of a number below sixteen reads that number as a signed integer. -/
theorem toInt_ofNat_lt16 (b : Fin 16) : (BitVec.ofNat 32 b.val).toInt = (b.val : Int) :=
  StableHlo.Predicate.toInt_ofNat_small b.val (by have := b.isLt; omega)

/-! ## The gather at an index -/

/-- The gather's dimension numbers over literal shapes: the operand is `[16, 4096, 128]`, a start index has two
    components (batch, node), and the result's last axis runs over the operand's last axis. -/
abbrev nbDims (wf : GatherDims.WF ⟨3, ![16, 4096, 128]⟩ ⟨4, ![16, 4096, 16, 2]⟩ ⟨4, ![16, 4096, 16, 128]⟩
    [3] [0, 1] [] [0, 1] [] 3 ![1, 1, 128]) :
    GatherDims ⟨3, ![16, 4096, 128]⟩ ⟨4, ![16, 4096, 16, 2]⟩ ⟨4, ![16, 4096, 16, 128]⟩ where
  offsetDims := [3]
  collapsedSliceDims := [0, 1]
  operandBatchingDims := []
  startIndicesBatchingDims := []
  startIndexMap := [0, 1]
  indexVectorDim := 3
  sliceSizes := ![1, 1, 128]
  wf := wf

/-- The start-indices index at which result index `(b, n, k, c)` reads component `q` of its start index. -/
theorem nbDims_siIdx
    (wf : GatherDims.WF ⟨3, ![16, 4096, 128]⟩ ⟨4, ![16, 4096, 16, 2]⟩ ⟨4, ![16, 4096, 16, 128]⟩
      [3] [0, 1] [] [0, 1] [] 3 ![1, 1, 128])
    (b : Fin 16) (n : Fin 4096) (k : Fin 16) (c : Fin 128) (q : Fin 2) :
    (nbDims wf).siIdx (ix4 b n k c) q = ix4 b n k q := by
  funext e; refine Fin.ext ?_
  match e with
  | ⟨0, _⟩ => rfl
  | ⟨1, _⟩ => rfl
  | ⟨2, _⟩ => rfl
  | ⟨3, _⟩ => rfl

/-- THE GATHER READ AT `(b, n, k, c)`: the operand at the two start components, each read signed and clamped into its
    axis, and at `c` on the last axis. -/
theorem gather_at {α : Type} {w : Nat}
    (wf : GatherDims.WF ⟨3, ![16, 4096, 128]⟩ ⟨4, ![16, 4096, 16, 2]⟩ ⟨4, ![16, 4096, 16, 128]⟩
      [3] [0, 1] [] [0, 1] [] 3 ![1, 1, 128])
    (xT : (⟨3, ![16, 4096, 128]⟩ : Shape).Idx → α) (idx : IVec ⟨4, ![16, 4096, 16, 2]⟩ w)
    (b : Fin 16) (n : Fin 4096) (k : Fin 16) (c : Fin 128) :
    Host.gather (nbDims wf) xT idx (ix4 b n k c)
      = xT (ix3 (⟨min (idx (ix4 b n k (0 : Fin 2))).toInt.toNat 15, by omega⟩ : Fin 16)
          (⟨min (idx (ix4 b n k (1 : Fin 2))).toInt.toNat 4095, by omega⟩ : Fin 4096) c) := by
  unfold Host.gather
  congr 1
  funext a
  refine Fin.ext ?_
  show (nbDims wf).start (ix4 b n k c) idx a + (nbDims wf).batchCoord (ix4 b n k c) a
    + (nbDims wf).offCoord (ix4 b n k c) a = _
  rw [GatherDims.batchCoord_eq_zero _ _ _ List.not_mem_nil, Nat.add_zero]
  match a with
  | ⟨0, h0⟩ =>
    have hm : (⟨0, h0⟩ : Fin 3) ∈ (nbDims wf).startIndexMap := List.mem_cons_self
    rw [GatherDims.offCoord_eq_zero _ _ _ (fun h => ((GatherDims.mem_sKept _ _).mp h).1 List.mem_cons_self), Nat.add_zero]
    unfold GatherDims.start
    rw [dif_pos hm]
    have hq : (⟨List.idxOf (⟨0, h0⟩ : Fin 3) (nbDims wf).startIndexMap, List.idxOf_lt_length_iff.2 hm⟩
        : Fin (nbDims wf).startIndexMap.length) = (0 : Fin 2) := rfl
    rw [hq, nbDims_siIdx]
    rfl
  | ⟨1, h1⟩ =>
    have hm : (⟨1, h1⟩ : Fin 3) ∈ (nbDims wf).startIndexMap := List.mem_cons_of_mem _ List.mem_cons_self
    rw [GatherDims.offCoord_eq_zero _ _ _ (fun h => ((GatherDims.mem_sKept _ _).mp h).1 (List.mem_cons_of_mem _ List.mem_cons_self)), Nat.add_zero]
    unfold GatherDims.start
    rw [dif_pos hm]
    have hq : (⟨List.idxOf (⟨1, h1⟩ : Fin 3) (nbDims wf).startIndexMap, List.idxOf_lt_length_iff.2 hm⟩
        : Fin (nbDims wf).startIndexMap.length) = (1 : Fin 2) := rfl
    rw [hq, nbDims_siIdx]
    rfl
  | ⟨2, h2⟩ =>
    have hm : (⟨2, h2⟩ : Fin 3) ∉ (nbDims wf).startIndexMap := by
      show (⟨2, h2⟩ : Fin 3) ∉ ([0, 1] : List (Fin 3))
      simp [Fin.ext_iff]
    unfold GatherDims.start
    rw [dif_neg hm, Nat.zero_add]
    unfold GatherDims.offCoord
    have hk : (⟨2, h2⟩ : Fin 3) ∈ (nbDims wf).sKept :=
      (GatherDims.mem_sKept _ _).mpr ⟨by show (⟨2, h2⟩ : Fin 3) ∉ ([0, 1] : List (Fin 3)); simp [Fin.ext_iff], List.not_mem_nil⟩
    rw [dif_pos hk]
    rfl

/-! ## The integer stages at an index -/

open Cert.ReferenceIdeal Cert.ReferenceIdeal.Gen Cert.ReferenceIdeal.Read

/-- The batch component before it is spread over nodes and slots: the batch number's word. -/
theorem v7_at (b : Fin 16) : val_main_v7 (F := Ideal) (ix3 b (0 : Fin 1) (0 : Fin 1)) = BitVec.ofNat 32 b.val := by
  rw [val_main_v7_apply, val_main_v4_apply, val_main_v3_apply, val_main_c_apply, val_main_v2_apply, val_main_v1_apply]
  show Scalar.select (IntOp.cmpi .slt (BitVec.ofNat 32 b.val) 0#32) _ (BitVec.ofNat 32 b.val) = BitVec.ofNat 32 b.val
  rw [slt_zero_of_nonneg _ (by rw [toInt_ofNat_lt16]; omega), select_zero]

/-- The batch component at `(b, n, k)`. -/
theorem v14_at (b : Fin 16) (n : Fin 4096) (k : Fin 16) :
    val_main_v14 (F := Ideal) (ix4 b n k (0 : Fin 1)) = BitVec.ofNat 32 b.val := by
  have e14 : idx_main_v14 (ix4 b n k (0 : Fin 1)) = ix3 b n k := by
    funext a; refine Fin.ext ?_
    match a with | ⟨0, _⟩ => rfl | ⟨1, _⟩ => rfl | ⟨2, _⟩ => rfl
  have e13 : idx_main_v13 (ix3 b n k) = ix3 b (0 : Fin 1) (0 : Fin 1) := by
    funext a; refine Fin.ext ?_
    match a with | ⟨0, _⟩ => rfl | ⟨1, _⟩ => rfl | ⟨2, _⟩ => rfl
  rw [val_main_v14_apply, e14, val_main_v13_apply, e13, v7_at]

/-- A neighbour word that is not negative is left as it is by the wrap-around of negative ids. -/
theorem v12_at (nb : IVec S16x4096x16 32) (hnb : ∀ j, 0 ≤ (nb j).toInt) (b : Fin 16) (n : Fin 4096) (k : Fin 16) :
    val_main_v12 (F := Ideal) nb (ix3 b n k) = nb (ix3 b n k) := by
  rw [val_main_v12_apply, val_main_v9_apply, val_main_v8_apply, val_main_c_1_apply,
    slt_zero_of_nonneg _ (hnb _), select_zero]

/-- The neighbour component at `(b, n, k)`. -/
theorem v15_at (nb : IVec S16x4096x16 32) (hnb : ∀ j, 0 ≤ (nb j).toInt) (b : Fin 16) (n : Fin 4096) (k : Fin 16) :
    val_main_v15 (F := Ideal) nb (ix4 b n k (0 : Fin 1)) = nb (ix3 b n k) := by
  have e15 : idx_main_v15 (ix4 b n k (0 : Fin 1)) = ix3 b n k := by
    funext a; refine Fin.ext ?_
    match a with | ⟨0, _⟩ => rfl | ⟨1, _⟩ => rfl | ⟨2, _⟩ => rfl
  rw [val_main_v15_apply, e15, v12_at nb hnb]

/-- Component 0 of a start index is the batch component. -/
theorem v16_zero (nb : IVec S16x4096x16 32) (b : Fin 16) (n : Fin 4096) (k : Fin 16) :
    val_main_v16 (F := Ideal) nb (ix4 b n k (0 : Fin 2)) = val_main_v14 (F := Ideal) (ix4 b n k (0 : Fin 1)) := by
  unfold val_main_v16
  exact concatenate_pair_apply_left (t := S16x4096x16x2) (s₁ := S16x4096x16x1) (s₂ := S16x4096x16x1) 3
    (val_main_v14 (F := Ideal)) (val_main_v15 (F := Ideal) nb)
    concatenates_S16x4096x16x1_S16x4096x16x1_S16x4096x16x2_d3 (ix4 b n k (0 : Fin 2)) rfl (ix4 b n k (0 : Fin 1))
    (fun e => match e with | ⟨0, _⟩ => rfl | ⟨1, _⟩ => rfl | ⟨2, _⟩ => rfl | ⟨3, _⟩ => rfl)

/-- Component 1 of a start index is the neighbour component. -/
theorem v16_one (nb : IVec S16x4096x16 32) (b : Fin 16) (n : Fin 4096) (k : Fin 16) :
    val_main_v16 (F := Ideal) nb (ix4 b n k (1 : Fin 2)) = val_main_v15 (F := Ideal) nb (ix4 b n k (0 : Fin 1)) := by
  unfold val_main_v16
  exact concatenate_pair_apply_right (t := S16x4096x16x2) (s₁ := S16x4096x16x1) (s₂ := S16x4096x16x1) 3
    (val_main_v14 (F := Ideal)) (val_main_v15 (F := Ideal) nb)
    concatenates_S16x4096x16x1_S16x4096x16x1_S16x4096x16x2_d3 (ix4 b n k (1 : Fin 2)) rfl rfl (ix4 b n k (0 : Fin 1))
    (fun e he => match e, he with
      | ⟨0, _⟩, _ => rfl | ⟨1, _⟩, _ => rfl | ⟨2, _⟩, _ => rfl | ⟨3, _⟩, he => (he rfl).elim)
    rfl

/-! ## The gather stage, the reduction and the result -/

/-- The gathered array at `(b, n, k, c)`: `x` at batch `b`, channel `c` and the column the neighbour word selects. -/
theorem v17_at (x : FVec Ideal S16x128x4096 .f32) (nb : IVec S16x4096x16 32) (hnb : ∀ j, 0 ≤ (nb j).toInt)
    (b : Fin 16) (n : Fin 4096) (k : Fin 16) (c : Fin 128) :
    val_main_v17 (F := Ideal) x nb (ix4 b n k c)
      = x (ix3 b c (⟨min (nb (ix3 b n k)).toInt.toNat 4095, by omega⟩ : Fin 4096)) := by
  unfold val_main_v17
  show Host.gather (nbDims gather_S16x4096x128_S16x4096x16x2_S16x4096x16x128_3_01_n_n_01_3_11128_wf)
    (val_main_v0 (F := Ideal) x) (val_main_v16 (F := Ideal) nb) (ix4 b n k c) = _
  rw [gather_at, val_main_v0_apply]
  refine congrArg x ?_
  funext a; refine Fin.ext ?_
  match a with
  | ⟨0, _⟩ =>
    show min (val_main_v16 (F := Ideal) nb (ix4 b n k (0 : Fin 2))).toInt.toNat 15 = b.val
    rw [v16_zero, v14_at, toInt_ofNat_lt16]
    have := b.isLt
    omega
  | ⟨1, _⟩ => rfl
  | ⟨2, _⟩ =>
    show min (val_main_v16 (F := Ideal) nb (ix4 b n k (1 : Fin 2))).toInt.toNat 4095
      = min (nb (ix3 b n k)).toInt.toNat 4095
    rw [v16_one, v15_at nb hnb]

/-- A node's index with slot `k` put back on the reduced axis. -/
theorem lift_ix4 (h : S16x4096x16x128.Reduces [2] S16x4096x128) (b : Fin 16) (n : Fin 4096) (c : Fin 128)
    (k : Fin (S16x4096x16x128.size 2)) : h.lift (ix3 b n c) k = ix4 b n (⟨k.val, k.isLt⟩ : Fin 16) c := by
  funext e; refine Fin.ext ?_
  match e with
  | ⟨0, _⟩ => rfl
  | ⟨1, _⟩ => rfl
  | ⟨2, _⟩ => rfl
  | ⟨3, _⟩ => rfl

/-- The reduction over the slots, from `-∞`, is the supremum over the slots. -/
theorem v18_at (x : FVec Ideal S16x128x4096 .f32) (nb : IVec S16x4096x16 32)
    (b : Fin 16) (n : Fin 4096) (c : Fin 128) :
    val_main_v18 (F := Ideal) x nb (ix3 b n c)
      = Finset.univ.sup fun k : Fin 16 => val_main_v17 (F := Ideal) x nb (ix4 b n k c) := by
  have h : S16x4096x16x128.Reduces [2] S16x4096x128 := by decide
  unfold val_main_v18
  rw [Host.reduce_eq_fold_single FloatOps.maximumf _ _ reducesTo_S16x4096x16x128_S16x4096x128_d2 h h_S_]
  have hbot : val_main_cst (F := Ideal) (Shape.Idx.first h_S_) = (⊥ : EReal) := by
    show Ideal.ofBits .f32 0xFF800000#32 = ⊥
    simp [Ideal.ofBits, Ideal.ieee]
  have hf : (val_main_v17 (F := Ideal) x nb ∘ h.lift (ix3 b n c))
      = fun k : Fin 16 => val_main_v17 (F := Ideal) x nb (ix4 b n k c) :=
    funext fun k => congrArg (val_main_v17 (F := Ideal) x nb) (lift_ix4 h b n c k)
  rw [hbot, hf]
  rfl

/-- The reference's last stage is `nbMax`. -/
theorem ref_eq (x : FVec Ideal Cert.ReferenceIdeal.S16x128x4096 .f32) (nb : IVec Cert.ReferenceIdeal.S16x4096x16 32)
    (hnb : ∀ j, 0 ≤ (nb j).toInt) :
    Cert.ReferenceIdeal.Read.val_main_v20 (F := Ideal) x nb = nbMax x nb := by
  funext i
  obtain ⟨b, c, n, rfl⟩ : ∃ (b : Fin 16) (c : Fin 128) (n : Fin 4096), i = ix3 b c n := ⟨i 0, i 1, i 2, eq_ix3 i⟩
  have e19 : idx_main_v19 (ix3 b c n) = ix3 b n c := by
    funext a; refine Fin.ext ?_
    match a with | ⟨0, _⟩ => rfl | ⟨1, _⟩ => rfl | ⟨2, _⟩ => rfl
  rw [val_main_v20_apply, val_main_v19_apply, e19, v18_at, nbMax_ix3]
  simp only [v17_at x nb hnb]
  rfl

end Cert.NeighborMax

end
-- ==== Proof.KernelHost.lean ====
/-
  What the region finds in the two arrays the host prepares from the arguments.

  The stacked operand is `x` on its first 128 channels and `x − x` on the next 128 (the narrowing and widening
  format changes are the identity on extended reals), so its lower half is zero wherever `x` is a real number.
  The neighbour words arrive clipped into `[0, 4095]` and with the slot axis moved in front of the node axis; the
  clipped word, as a natural number, is the column `col` of the original word, whatever that word is.
-/
import proofs.«407954_j51024211476648_3_alg».proof.Proof.Gen.KernelIdeal.Frame
import proofs.«407954_j51024211476648_3_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.Lib.WordArith
import Idealize.ShloMosaic.Lib.IdealHost

noncomputable section

namespace Cert.NeighborMax

open Idealize.ShloMosaic Idealize.ShloMosaic.TcCoe Idealize.SL.Sem Idealize.ShloMosaic.ValueIdx
open Idealize.ShloMosaic.WordArith
open Cert.KernelIdeal Cert.KernelIdeal.Gen

/-- The stacked operand as a function of `x`: `x` over `x − x` along the channel axis. -/
abbrev stack (x : FVec Ideal S16x128x4096 .f32) : FVec Ideal S16x256x4096 .bf16 :=
  concatenate S16x256x4096 1
    [⟨S16x128x4096, truncf .bf16 x bitsLt_bf16_f32⟩,
     ⟨S16x128x4096, truncf .bf16 (subf x (extf .f32 (truncf .bf16 x bitsLt_bf16_f32) bitsLt_bf16_f32)) bitsLt_bf16_f32⟩]
    concatenates_S16x128x4096_S16x128x4096_S16x256x4096_d1

/-- The clipped neighbour words, slot axis before node axis. -/
abbrev clipT (nb : IVec S16x4096x16 32) : IVec S16x16x4096 32 :=
  transpose S16x16x4096 [0, 2, 1]
    (minsi (broadcastInDim S16x4096x16 ![] bcast_S_S16x4096x16 (constantI S_ 32 4095#32))
      (maxsi (broadcastInDim S16x4096x16 ![] bcast_S_S16x4096x16 (constantI S_ 32 0#32)) nb))
    transposes_S16x4096x16_S16x16x4096_0_2_1

/-- On the first 128 channels the stack is `x`. -/
theorem stack_hi (x : FVec Ideal S16x128x4096 .f32) (b : Fin 16) (ch : Fin 128) (n : Fin 4096) :
    stack x (ix3 b (⟨ch.val, by have := ch.isLt; omega⟩ : Fin 256) n) = x (ix3 b ch n) := by
  unfold stack
  refine (concatenate_pair_apply_left (t := S16x256x4096) (s₁ := S16x128x4096) (s₂ := S16x128x4096) (1 : Fin 3) _ _
    concatenates_S16x128x4096_S16x128x4096_S16x256x4096_d1
    (ix3 b (⟨ch.val, by have := ch.isLt; omega⟩ : Fin 256) n) rfl (ix3 b ch n) ?_).trans rfl
  intro a
  match a with
  | ⟨0, _⟩ => rfl
  | ⟨1, _⟩ => rfl
  | ⟨2, _⟩ => rfl

/-- On the next 128 channels the stack is `x − x`: zero where `x` is real. -/
theorem stack_lo (x : FVec Ideal S16x128x4096 .f32) (b : Fin 16) (ch : Fin 128) (n : Fin 4096)
    (hx : ∃ r : ℝ, x (ix3 b ch n) = (r : EReal)) :
    stack x (ix3 b (⟨ch.val + 128, by have := ch.isLt; omega⟩ : Fin 256) n) = (0 : EReal) := by
  unfold stack
  refine (concatenate_pair_apply_right (t := S16x256x4096) (s₁ := S16x128x4096) (s₂ := S16x128x4096) (1 : Fin 3) _ _
    concatenates_S16x128x4096_S16x128x4096_S16x256x4096_d1
    (ix3 b (⟨ch.val + 128, by have := ch.isLt; omega⟩ : Fin 256) n) rfl rfl (ix3 b ch n) ?_ ?_).trans ?_
  · intro a ha
    match a with
    | ⟨0, _⟩ => rfl
    | ⟨1, _⟩ => exact absurd rfl ha
    | ⟨2, _⟩ => rfl
  · rfl
  · obtain ⟨r, hr⟩ := hx
    show x (ix3 b ch n) - x (ix3 b ch n) = (0 : EReal)
    rw [hr, ← EReal.coe_sub, sub_self, EReal.coe_zero]

/-- The clipped word at slot `k`, node `n`: the column of the original word at node `n`, slot `k`. -/
theorem clipT_apply (nb : IVec S16x4096x16 32) (b : Fin 16) (k : Fin 16) (n : Fin 4096) :
    clipT nb (ix3 b k n) = BitVec.ofNat 32 (col (nb (ix3 b n k))).val := by
  unfold clipT
  rw [transpose_apply [0, 2, 1] _ transposes_S16x4096x16_S16x16x4096_0_2_1 (ix3 b k n) (ix3 b n k) (fun a => match a with
    | ⟨0, _⟩ => rfl
    | ⟨1, _⟩ => rfl
    | ⟨2, _⟩ => rfl)]
  show IntOp.minsi (broadcastInDim S16x4096x16 ![] bcast_S_S16x4096x16 (constantI S_ 32 4095#32) (ix3 b n k))
      (IntOp.maxsi (broadcastInDim S16x4096x16 ![] bcast_S_S16x4096x16 (constantI S_ 32 0#32) (ix3 b n k)) (nb (ix3 b n k))) = _
  rw [broadcastInDim_scalar_apply, broadcastInDim_scalar_apply]
  show IntOp.minsi 4095#32 (IntOp.maxsi 0#32 (nb (ix3 b n k))) = _
  apply BitVec.eq_of_toNat_eq
  have h1 := toNat_maxsi_zero (nb (ix3 b n k))
  have h2 : 2 * (IntOp.maxsi 0#32 (nb (ix3 b n k))).toNat < 2 ^ 32 := two_mul_toNat_maxsi_zero_lt (nb (ix3 b n k))
  rw [toNat_minsi_of_lt _ _ (by decide) (by omega), h1, BitVec.toNat_ofNat, BitVec.toNat_ofNat, col_val]
  omega

/-! ## The two arrays as the region finds them -/

variable (m : (ℓ : Loc nD τ sig) → Buf (Elt Ideal) ℓ)

/-- `x` as launched. -/
abbrev xArr (c : Dev nD) : FVec Ideal S16x128x4096 .f32 := m ((c : Thread nD τ).loc main_arg0)
/-- The neighbour words as launched. -/
abbrev nbArr (c : Dev nD) : IVec S16x4096x16 32 := m ((c : Thread nD τ).loc main_arg1)

/-- The host's six operations on `x` leave the stack in the first window's array. -/
theorem V_stack (c : Dev nD) : (V m c main_v6 : S16x256x4096.Idx → EReal) = stack (xArr m c) := by
  dsimp only [V]
  simp only [hostOps0, hostOps0_1, hostOps0_2, List.flatten_cons, List.flatten_nil, List.append_nil, List.cons_append,
    List.nil_append]
  after_results

/-- The clip and the transposition leave the clipped words in the third window's array. -/
theorem V_clip (c : Dev nD) : (V m c main_v1 : S16x16x4096.Idx → BitVec 32) = clipT (nbArr m c) := by
  dsimp only [V]
  simp only [hostOps0, hostOps0_1, hostOps0_2, List.flatten_cons, List.flatten_nil, List.append_nil, List.cons_append,
    List.nil_append]
  after_results
  rfl

end Cert.NeighborMax

end
-- ==== Proof.Payload.lean ====
/-
  The kernel body's three pure values read at an index, at the ideal instance: the loop's start value is `⊥`
  everywhere; one trip joins into the running maximum the column of the stacked operand that the trip's
  neighbour word selects (the one-hot product picks one column; the lower half of the stack contributes zero);
  the stored value is the larger of the loop's result and the block of `x`.
-/
import proofs.«407954_j51024211476648_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.NeighborMax

open Idealize.ShloMosaic Idealize.ShloMosaic.ValueIdx Cert.KernelIdeal Cert.KernelIdeal.Gen

open scoped BigOperators

/-! ## Words: the comparison of two column numbers -/

/-- Two numbers below `4096` are equal when they are equal as 32-bit words. -/
theorem eq_of_ofNat32_eq {a b : ℕ} (ha : a < 4096) (hb : b < 4096) (h : BitVec.ofNat 32 a = BitVec.ofNat 32 b) :
    a = b := by
  have ht := congrArg BitVec.toNat h
  rw [BitVec.toNat_ofNat, BitVec.toNat_ofNat, Nat.mod_eq_of_lt (by omega), Nat.mod_eq_of_lt (by omega)] at ht
  exact ht

/-- The equality test of two column numbers, widened to a word and converted, is `1` on the diagonal and `0` off it. -/
theorem oneHot_word (k n : Fin 4096) :
    (FloatOps.sitofp (F := Ideal) .f32
        ((IntOp.cmpi .eq (BitVec.ofNat 32 k.val) (BitVec.ofNat 32 n.val)).setWidth 32) : EReal)
      = if k = n then 1 else 0 := by
  show ((((IntOp.cmpi .eq (BitVec.ofNat 32 k.val) (BitVec.ofNat 32 n.val)).setWidth 32).toInt : ℝ) : EReal) = _
  rw [toInt_setWidth_bit]
  by_cases h : k = n
  · subst h
    rw [if_pos rfl]
    have hb : IntOp.cmpi .eq (BitVec.ofNat 32 k.val) (BitVec.ofNat 32 k.val) = 1#1 := by
      simp [IntOp.cmpi]
    rw [hb]
    norm_num
  · rw [if_neg h]
    have hne : BitVec.ofNat 32 k.val ≠ BitVec.ofNat 32 n.val :=
      fun e => h (Fin.ext (eq_of_ofNat32_eq k.isLt n.isLt e))
    have hb : IntOp.cmpi .eq (BitVec.ofNat 32 k.val) (BitVec.ofNat 32 n.val) = 0#1 := by
      show BitVec.ofBool (BitVec.ofNat 32 k.val == BitVec.ofNat 32 n.val) = 0#1
      rw [beq_eq_false_iff_ne.mpr hne]
      rfl
    rw [hb]
    norm_num

/-! ## Layout: the trip's words as a row, spread over every row -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The trip's words, viewed as one row and spread over the `4096` rows, read at `(k, j)` the word of lane `j`. -/
theorem words_apply (v16 : Vec Ideal S1x1x512 .i32) (k : Fin 4096) (j : Fin 512) :
    broadcastTo S4096x512
        (shapeCast S1x512 (shapeCast S512 v16 shapeCasts_S1x1x512_S512) shapeCasts_S512_S1x512)
        broadcasts_S1x512_S4096x512 (ix2 k j)
      = v16 (ix3 (0 : Fin 1) (0 : Fin 1) j) := by
  rw [broadcastTo_1b_ab_apply, shapeCast_a_1a_apply, shapeCast_11a_a_apply]

/-- The one-hot matrix at `(k, j)`: `1` when row `k` is the column lane `j`'s word names, else `0`. -/
theorem oneHot_apply (v16 : Vec Ideal S1x1x512 .i32) (k : Fin 4096) (j : Fin 512) (n : Fin 4096)
    (hn : v16 (ix3 (0 : Fin 1) (0 : Fin 1) j) = BitVec.ofNat 32 n.val) :
    (truncf (F := Ideal) .bf16
        (sitofp (F := Ideal) .f32
          (extui 32
            (cmpi .eq (iota .tc S4096x512 32 [0] iota_S4096x512_d0_w32)
              (broadcastTo S4096x512
                (shapeCast S1x512 (shapeCast S512 v16 shapeCasts_S1x1x512_S512) shapeCasts_S512_S1x512)
                broadcasts_S1x512_S4096x512))
            natLt_1_32))
        bitsLt_bf16_f32 : FVec Ideal S4096x512 .bf16) (ix2 k j)
      = if k = n then (1 : EReal) else 0 := by
  rw [truncf_apply, sitofp_apply, extui_apply]
  show (FloatOps.sitofp (F := Ideal) .f32
      ((IntOp.cmpi .eq (iota .tc S4096x512 32 [0] iota_S4096x512_d0_w32 (ix2 k j))
        (broadcastTo S4096x512
          (shapeCast S1x512 (shapeCast S512 v16 shapeCasts_S1x1x512_S512) shapeCasts_S512_S1x512)
          broadcasts_S1x512_S4096x512 (ix2 k j))).setWidth 32) : EReal) = _
  rw [words_apply, hn, iota_single_apply]
  exact oneHot_word k n

/-! ## The product: its operand indices, axis by axis -/

theorem lhs_prod_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide),
    dif_pos (show (0 : Fin S256x4096.rank) ∈ dot_S256x4096_S4096x512_S256x512_1_0_0_1_n_n.lhsNonContracting by decide)]
  rfl

theorem lhs_prod_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q

theorem rhs_prod_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q

theorem rhs_prod_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide),
    dif_pos (show (1 : Fin S4096x512.rank) ∈ dot_S256x4096_S4096x512_S256x512_1_0_0_1_n_n.rhsNonContracting by decide)]
  rfl

/-- The product into the zero accumulator, read at `(r, j)`: the sum over the `4096` columns of the left operand's row
    `r` times the right operand's column `j`. -/
theorem prod_apply (A : FVec Ideal S256x4096 .bf16) (B : FVec Ideal S4096x512 .bf16) (r : Fin 256) (j : Fin 512) :
    matmul (F := Ideal) dot_S256x4096_S4096x512_S256x512_1_0_0_1_n_n none A B
        (constant (F := Ideal) S256x512 .f32 0x00000000#32) (ix2 r j)
      = ∑ k : Fin 4096, A (ix2 r k) * B (ix2 k j) := by
  simp only [matmul]
  rw [Ideal.matmul_constant_zero_apply,
    ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 r j)
      ((contrEquiv1 dot_S256x4096_S4096x512_S256x512_1_0_0_1_n_n 4096 rfl rfl).symm k) = ix2 r k :=
    funext fun a => Fin.ext (by
      match a with
      | ⟨0, _⟩ => exact lhs_prod_0 _ _
      | ⟨1, _⟩ => exact (lhs_prod_1 _ _).trans hk)
  have er : dot_S256x4096_S4096x512_S256x512_1_0_0_1_n_n.rhsIdx (ix2 r j)
      ((contrEquiv1 dot_S256x4096_S4096x512_S256x512_1_0_0_1_n_n 4096 rfl rfl).symm k) = ix2 k j :=
    funext fun a => Fin.ext (by
      match a with
      | ⟨0, _⟩ => exact (rhs_prod_0 _ _).trans hk
      | ⟨1, _⟩ => exact rhs_prod_1 _ _)
  rw [el, er]

/-- A row times a one-hot column is the row's entry at the hot place: every other term has a zero factor. -/
theorem sum_mul_oneHot (f : Fin 4096 → EReal) (n : Fin 4096) :
    ∑ k : Fin 4096, f k * (if k = n then (1 : EReal) else 0) = f n := by
  rw [Finset.sum_eq_single n]
  · rw [if_pos rfl, mul_one]
  · intro k _ hk
    rw [if_neg hk, mul_zero]
  · intro h
    exact absurd (Finset.mem_univ n) h

/-- The product of the stacked operand with the one-hot matrix, read at `(r, j)`: the operand's row `r` at the column lane
    `j`'s word names. -/
theorem gathered_apply (x0 : Vec Ideal S1x256x4096 .bf16) (v16 : Vec Ideal S1x1x512 .i32)
    (r : Fin 256) (j : Fin 512) (n : Fin 4096)
    (hn : v16 (ix3 (0 : Fin 1) (0 : Fin 1) j) = BitVec.ofNat 32 n.val) :
    matmul (F := Ideal) dot_S256x4096_S4096x512_S256x512_1_0_0_1_n_n none
        (shapeCast S256x4096 x0 shapeCasts_S1x256x4096_S256x4096 : FVec Ideal S256x4096 .bf16)
        (truncf (F := Ideal) .bf16
          (sitofp (F := Ideal) .f32
            (extui 32
              (cmpi .eq (iota .tc S4096x512 32 [0] iota_S4096x512_d0_w32)
                (broadcastTo S4096x512
                  (shapeCast S1x512 (shapeCast S512 v16 shapeCasts_S1x1x512_S512) shapeCasts_S512_S1x512)
                  broadcasts_S1x512_S4096x512))
              natLt_1_32))
          bitsLt_bf16_f32 : FVec Ideal S4096x512 .bf16)
        (constant (F := Ideal) S256x512 .f32 0x00000000#32) (ix2 r j)
      = x0 (ix3 (0 : Fin 1) r n) := by
  rw [prod_apply]
  simp only [oneHot_apply v16 _ j n hn]
  rw [sum_mul_oneHot (fun k => shapeCast S256x4096 x0 shapeCasts_S1x256x4096_S256x4096 (ix2 r k)) n]
  exact shapeCast_1ab_ab_apply x0 shapeCasts_S1x256x4096_S256x4096 r n

/-! ## The three payloads -/

/-- The loop's start value: `-inf` everywhere. -/
theorem pay1_apply (c : Fin 128) (j : Fin 512) : k0_pay1 (F := Ideal) (ix2 c j) = (⊥ : EReal) := by
  unfold k0_pay1
  show Ideal.ofBits .f32 0xFF800000#32 = ⊥
  simp [Ideal.ofBits, Ideal.ieee]

/-- One trip at `(c, j)`: when the trip's word for lane `j` is the column `n` and the lower half of the stack is
    zero on row `c`, the trip joins `x0[0, c, n]` into the running maximum. -/
theorem pay2_apply (x0 : Vec Ideal S1x256x4096 .bf16) (acc : FVec Ideal S128x512 .f32) (v16 : Vec Ideal S1x1x512 .i32)
    (c : Fin 128) (j : Fin 512) (n : Fin 4096)
    (hn : v16 (ix3 (0 : Fin 1) (0 : Fin 1) j) = BitVec.ofNat 32 n.val)
    (hlo : ∀ n' : Fin 4096, x0 (ix3 (0 : Fin 1) (⟨c.val + 128, by have := c.isLt; omega⟩ : Fin 256) n') = (0 : EReal)) :
    k0_pay2 (F := Ideal) x0 acc v16 (ix2 c j)
      = max (acc (ix2 c j)) (x0 (ix3 (0 : Fin 1) (⟨c.val, by have := c.isLt; omega⟩ : Fin 256) n)) := by
  unfold k0_pay2
  rw [maximumf_apply, addf_apply,
    slice2_axis0_apply 0 _ slices_S256x512_o0_0_S128x512 c j (⟨c.val, by have := c.isLt; omega⟩ : Fin 256)
      (Nat.zero_add _).symm,
    slice2_axis0_apply 128 _ slices_S256x512_o128_0_S128x512 c j (⟨c.val + 128, by have := c.isLt; omega⟩ : Fin 256)
      (Nat.add_comm _ _),
    gathered_apply x0 v16 _ j n hn, gathered_apply x0 v16 _ j n hn, hlo n, add_zero]

/-- The stored value at `(0, c, j)`. -/
theorem pay3_apply (v5 : FVec Ideal S128x512 .f32) (v9 : Vec Ideal S1x128x512 .f32) (c : Fin 128) (j : Fin 512) :
    k0_pay3 (F := Ideal) v5 v9 (ix3 (0 : Fin 1) c j) = max (v5 (ix2 c j)) (v9 (ix3 (0 : Fin 1) c j)) := by
  unfold k0_pay3
  rw [shapeCast_ab_1ab_apply, maximumf_apply, shapeCast_1ab_ab_apply]

end Cert.NeighborMax

end
-- ==== Proof.KernelBody.lean ====
/-
  What the kernel body leaves in the output block, at an index.

  One trip of the body's loop joins into the carried block the columns of the stacked operand that the trip's row of
  neighbour words selects (the trip's result is read here once, from the run that found it). Sixteen trips from
  `⊥` therefore carry the running maximum `runMax`, which after the last trip is the supremum over the slots; the
  store then takes the larger of that and the block of `x` at the point's columns.
-/
import proofs.«407954_j51024211476648_3_alg».proof.Proof.Gen.KernelIdeal.Frame
import proofs.«407954_j51024211476648_3_alg».proof.Proof.Payload
import proofs.«407954_j51024211476648_3_alg».proof.Proof.Spec
import Idealize.ShloMosaic.Lib.Pipeline.Value
import Idealize.ShloMosaic.Lib.Tactic
import Idealize.ShloMosaic.Lib.ValueIdx

set_option maxRecDepth 16384

noncomputable section

namespace Cert.NeighborMax

open Idealize.ShloMosaic Idealize.ShloMosaic.TcCoe Idealize.SL.Sem Idealize.ShloMosaic.ValueIdx
open Cert.KernelIdeal Cert.KernelIdeal.Gen

theorem hz3 : (![0, 0, 0] : Fin 3 → Nat) = fun _ => 0 := funext fun a => by fin_cases a <;> rfl

/-- The loop makes sixteen trips. -/
theorem trips_eq : k0_t1_loop.trips = 16 := by decide +kernel

section Body

variable (c : Dev nD) (i : grid0.Coords)
  (arg2 : Memref sig .tc .vmem S1x256x4096 .bf16) (harg2 : arg2.IsWhole)
  (arg3 : Memref sig .tc .vmem S1x128x4096 .f32) (harg3 : arg3.IsWhole)
  (arg4 : Memref sig .tc .vmem S1x16x512 .i32) (harg4 : arg4.IsWhole)
  (arg5 : Memref sig .tc .vmem S1x128x512 .f32) (harg5 : arg5.IsWhole)

/-- ONE TRIP's result: the trip's payload of the carried block and the trip's row of words. -/
theorem trip_eq (𝒱 : Variants) (bd : Option 𝒱.V) (v0 : Vec Ideal S1x256x4096 .bf16)
    (X : BufTy.Contents (Elt Ideal) arg4.view.ty) (k : Fin k0_t1_loop.trips) (acc : FVec Ideal S128x512 .f32) :
    tripR_k0_t1 (F := Ideal) 𝒱 c bd i arg2 harg2 arg3 harg3 arg4 harg4 arg5 harg5 v0 X k acc
      = k0_pay2 v0 acc (View.readAt (Elt Ideal) arg4.view
          (Rect.unit (s := S1x16x512) (k0_off1 k) S1x1x512.size (k0_off1_inb k)).toLoadRect X) := by
  unfold tripR_k0_t1 trip_k0_t1
  rfl

/-- The trip's row of words, at lane `j`: row `k` of the block of words. -/
theorem row_apply (x2 : Vec Ideal S1x16x512 .i32) (k : Fin k0_t1_loop.trips) (j : Fin 512) :
    View.readAt (Elt Ideal) arg4.view (Rect.unit (s := S1x16x512) (k0_off1 k) S1x1x512.size (k0_off1_inb k)).toLoadRect
        (harg4.unread x2) (ix3 (0 : Fin 1) (0 : Fin 1) j)
      = x2 (ix3 (0 : Fin 1) (⟨k.val, Nat.lt_of_lt_of_eq k.isLt trips_eq⟩ : Fin 16) j) := by
  rw [View.readAt_eq_ld, harg4.read_unread]
  show x2 _ = x2 _
  congr 1
  funext a
  apply Fin.ext
  have e := k0_off1_eq k
  match a with
  | ⟨0, _⟩ => show k0_off1 k 0 + 1 * 0 = 0; rw [e]; rfl
  | ⟨1, _⟩ => show k0_off1 k 1 + 1 * 0 = k.val; rw [e]; rfl
  | ⟨2, _⟩ => show k0_off1 k 2 + 1 * j.val = j.val; rw [e]; show 0 + 1 * j.val = j.val; omega

/-- The block of `x` the store reads, at `(0, ch, j)`: column `512 · i₁ + j` of the staged block. -/
theorem cols_apply (x1 : Vec Ideal S1x128x4096 .f32) (ch : Fin 128) (j : Fin 512) :
    View.readAt (Elt Ideal) arg3.view (Rect.unit (s := S1x128x4096) (k0_off2 i) S1x128x512.size (k0_off2_inb i)).toLoadRect
        (harg3.unread x1) (ix3 (0 : Fin 1) ch j)
      = x1 (ix3 (0 : Fin 1) ch (⟨512 * (i 1).val + j.val, by
          have h1 : (i 1).val < 8 := (i 1).isLt
          have := j.isLt; omega⟩ : Fin 4096)) := by
  rw [View.readAt_eq_ld, harg3.read_unread]
  show x1 _ = x1 _
  congr 1
  funext a
  apply Fin.ext
  have e := k0_off2_eq i
  match a with
  | ⟨0, _⟩ => show k0_off2 i 0 + 1 * 0 = 0; rw [e]; rfl
  | ⟨1, _⟩ => show k0_off2 i 1 + 1 * ch.val = ch.val; rw [e]; show 0 + 1 * ch.val = ch.val; omega
  | ⟨2, _⟩ => show k0_off2 i 2 + 1 * j.val = 512 * (i 1).val + j.val; rw [e]; show 512 * (i 1).val + 1 * j.val = _; omega

/-- WHAT THE BODY LEAVES in the output's staging buffer: the stored payload of the loop's result after all its trips
    and the block of `x` at the point's columns. -/
theorem out_eq (x0 : Vec Ideal S1x256x4096 .bf16) (x1 : Vec Ideal S1x128x4096 .f32) (x2 : Vec Ideal S1x16x512 .i32) :
    out0_A_3 (F := Ideal) c i arg2 harg2 arg3 harg3 arg4 harg4 arg5 harg5 x0 x1 x2
      = k0_pay3
          (st_k0_t1 (F := Ideal) Variants.none c none i arg2 harg2 arg3 harg3 arg4 harg4 arg5 harg5 x0 (harg4.unread x2)
            k0_pay1 k0_t1_loop.trips)
          (View.readAt (Elt Ideal) arg3.view
            (Rect.unit (s := S1x128x4096) (k0_off2 i) S1x128x512.size (k0_off2_inb i)).toLoadRect (harg3.unread x1)) := by
  unfold out0_A_3
  rw [View.read_writes_eq_canon _ _ _ (cover0_A_3 c i arg2 harg2 arg3 harg3 arg4 harg4 arg5 harg5 x0 x1 x2)]
  unfold kernelRun0_A
  dsimp only
  rw [View.canon_unit_zero hz3]
  simp only [View.readAt_eq_ld, harg2.read_unread, View.ld_unit_zero (S := S1x256x4096) hz3]

/-- THE LOOP, trip by trip: before trip `k` the carried block holds, at `(ch, j)`, the running maximum of the
    stacked operand's row `ch` at the columns the first `k` rows of words select in lane `j` — given that the
    stack's lower half is zero on row `ch` and that each word of lane `j` is the column `sel k`. -/
theorem loop_apply (𝒱 : Variants) (bd : Option 𝒱.V) (x0 : Vec Ideal S1x256x4096 .bf16) (x2 : Vec Ideal S1x16x512 .i32)
    (ch : Fin 128) (j : Fin 512) (sel : Fin 16 → Fin 4096)
    (hsel : ∀ k : Fin 16, x2 (ix3 (0 : Fin 1) k j) = BitVec.ofNat 32 (sel k).val)
    (hlo : ∀ n' : Fin 4096, x0 (ix3 (0 : Fin 1) (⟨ch.val + 128, by have := ch.isLt; omega⟩ : Fin 256) n') = (0 : EReal)) :
    ∀ k : ℕ, k ≤ 16 →
      st_k0_t1 (F := Ideal) 𝒱 c bd i arg2 harg2 arg3 harg3 arg4 harg4 arg5 harg5 x0 (harg4.unread x2) k0_pay1 k (ix2 ch j)
        = runMax (fun s : Fin 16 => x0 (ix3 (0 : Fin 1) (⟨ch.val, by have := ch.isLt; omega⟩ : Fin 256) (sel s))) k := by
  intro k
  induction k with
  | zero =>
    intro _
    show k0_pay1 (F := Ideal) (ix2 ch j) = _
    rw [pay1_apply]
    rfl
  | succ k ih =>
    intro hk
    have hk' : k < 16 := hk
    have hkt : k < k0_t1_loop.trips := by rw [trips_eq]; exact hk'
    have hs := st_k0_t1_succ (F := Ideal) 𝒱 c bd i arg2 harg2 arg3 harg3 arg4 harg4 arg5 harg5 x0 (harg4.unread x2) k0_pay1
      (⟨k, hkt⟩ : Fin k0_t1_loop.trips)
    have hs' : st_k0_t1 (F := Ideal) 𝒱 c bd i arg2 harg2 arg3 harg3 arg4 harg4 arg5 harg5 x0 (harg4.unread x2) k0_pay1 (k + 1)
        = tripR_k0_t1 (F := Ideal) 𝒱 c bd i arg2 harg2 arg3 harg3 arg4 harg4 arg5 harg5 x0 (harg4.unread x2) ⟨k, hkt⟩
            (st_k0_t1 (F := Ideal) 𝒱 c bd i arg2 harg2 arg3 harg3 arg4 harg4 arg5 harg5 x0 (harg4.unread x2) k0_pay1 k) := hs
    rw [hs', trip_eq]
    rw [pay2_apply x0 _ _ ch j (sel ⟨k, hk'⟩) ((row_apply arg4 harg4 x2 ⟨k, hkt⟩ j).trans (hsel ⟨k, hk'⟩)) hlo]
    rw [ih (Nat.le_of_lt hk')]
    exact (runMax_succ _ ⟨k, hk'⟩).symm

end Body

end Cert.NeighborMax

end
-- ==== Proof.KernelValue.lean ====
/-
  The kernel's result array is `nbMax` of the two arguments, when every entry of `x` is a real number.

  Point `t` of the 16 × 8 grid works on batch `t / 8` and on the 512 nodes starting at `512 · (t % 8)`. Its first
  two input blocks are the whole batch of the stacked operand and of `x`; its third is the sixteen rows of clipped
  words of its 512 nodes. With the body's value at an index (the running maximum over the sixteen rows, then the
  larger of that and `x`), what the point writes back is its block of `nbMax`; the 128 blocks tile the array.
-/
import proofs.«407954_j51024211476648_3_alg».proof.Proof.Gen.KernelIdeal.Value
import proofs.«407954_j51024211476648_3_alg».proof.Proof.KernelHost
import proofs.«407954_j51024211476648_3_alg».proof.Proof.KernelBody
import proofs.«407954_j51024211476648_3_alg».proof.Proof.Spec
import Idealize.ShloMosaic.Lib.Pipeline.Value
import Idealize.ShloMosaic.Lib.ValueIdx

set_option maxRecDepth 16384

noncomputable section

namespace Cert.NeighborMax

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The printed index maps and the second grid coordinate, decided over the 128 points: batch `t / 8`, node tile
    `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = t.val % 8
    ∧ ((grid0.coords t) 1).val = t.val % 8 :=
  (by decide +kernel : ∀ t : Fin grid0.N, _)

/-- A point's batch and its first node, as coordinates of the arrays. -/
abbrev batchOf (t : Fin cfg0.N) : Fin 16 := ⟨t.val / 8, by have h : t.val < 128 := Nat.lt_of_lt_of_eq t.isLt N_0; omega⟩
abbrev nodeOf (t : Fin cfg0.N) (j : Fin 512) : Fin 4096 :=
  ⟨512 * (t.val % 8) + j.val, by have := j.isLt; omega⟩

/-- The three input blocks of a point, at their literal types. -/
abbrev blk0 (c : Dev nD) (t : Fin cfg0.N) : Vec Ideal S1x256x4096 .bf16 := iblk m c 0 t
abbrev blk1 (c : Dev nD) (t : Fin cfg0.N) : Vec Ideal S1x128x4096 .f32 := iblk m c 1 t
abbrev blk2 (c : Dev nD) (t : Fin cfg0.N) : Vec Ideal S1x16x512 .i32 := iblk m c 2 t

/-- The first block is the point's batch of the stacked operand. -/
theorem blk0_apply (c : Dev nD) (t : Fin cfg0.N) (r : Fin 256) (n : Fin 4096) :
    blk0 m c t (ix3 (0 : Fin 1) r n) = stack (xArr m c) (ix3 (batchOf t) r n) := by
  obtain ⟨e0, e1, e2, -⟩ := idx_facts t
  unfold blk0 iblk
  rw [View.read_apply]
  show V m c main_v6 _ = _
  rw [V_stack]
  congr 1
  funext a
  apply Fin.ext
  match a with
  | ⟨0, _⟩ => show win0_0.index t (0 : Fin 3) * 1 + 1 * 0 = t.val / 8; omega
  | ⟨1, _⟩ => show win0_0.index t (1 : Fin 3) * 256 + 1 * r.val = r.val; omega
  | ⟨2, _⟩ => show win0_0.index t (2 : Fin 3) * 4096 + 1 * n.val = n.val; omega

/-- The second block is the point's batch of `x`. -/
theorem blk1_apply (c : Dev nD) (t : Fin cfg0.N) (ch : Fin 128) (n : Fin 4096) :
    blk1 m c t (ix3 (0 : Fin 1) ch n) = xArr m c (ix3 (batchOf t) ch n) := by
  obtain ⟨-, -, -, e0, e1, e2, -⟩ := idx_facts t
  unfold blk1 iblk
  rw [View.read_apply]
  show V m c main_arg0 _ = _
  rw [V_main_arg0]
  congr 1
  funext a
  apply Fin.ext
  match a with
  | ⟨0, _⟩ => show win0_1.index t (0 : Fin 3) * 1 + 1 * 0 = t.val / 8; omega
  | ⟨1, _⟩ => show win0_1.index t (1 : Fin 3) * 128 + 1 * ch.val = ch.val; omega
  | ⟨2, _⟩ => show win0_1.index t (2 : Fin 3) * 4096 + 1 * n.val = n.val; omega

/-- The third block is the sixteen rows of clipped words of the point's 512 nodes. -/
theorem blk2_apply (c : Dev nD) (t : Fin cfg0.N) (k : Fin 16) (j : Fin 512) :
    blk2 m c t (ix3 (0 : Fin 1) k j) = clipT (nbArr m c) (ix3 (batchOf t) k (nodeOf t j)) := by
  obtain ⟨-, -, -, -, -, -, e0, e1, e2, -⟩ := idx_facts t
  unfold blk2 iblk
  rw [View.read_apply]
  show V m c main_v1 _ = _
  rw [V_clip]
  congr 1
  funext a
  apply Fin.ext
  match a with
  | ⟨0, _⟩ => show win0_2.index t (0 : Fin 3) * 1 + 1 * 0 = t.val / 8; omega
  | ⟨1, _⟩ => show win0_2.index t (1 : Fin 3) * 16 + 1 * k.val = k.val; omega
  | ⟨2, _⟩ => show win0_2.index t (2 : Fin 3) * 512 + 1 * j.val = 512 * (t.val % 8) + j.val; omega

/-- WHAT POINT `t` LEAVES in the output's staging buffer, at `(0, ch, j)`: `nbMax` at the point's batch, channel
    `ch` and node `512 · (t % 8) + j`. -/
theorem point_apply (hfin : ∀ (c : Dev nD) i, ∃ r : ℝ, xArr m c i = (r : EReal)) (c : Dev nD) (t : Fin cfg0.N)
    (ch : Fin 128) (j : Fin 512) :
    outsAt0 m c t (ix3 (0 : Fin 1) ch j) = nbMaxAt (xArr m c) (nbArr m c) (batchOf t) ch (nodeOf t j) := by
  obtain ⟨-, -, -, -, -, -, -, -, -, -, -, -, eg⟩ := idx_facts t
  unfold outsAt0
  rw [out_eq c (grid0.coords t) (ms0_0 t) (hs0_0 t) (ms0_1 t) (hs0_1 t) (ms0_2 t) (hs0_2 t) (ms0_3 t) (hs0_3 t)
    (blk0 m c t) (blk1 m c t) (blk2 m c t)]
  rw [pay3_apply, cols_apply (grid0.coords t) (ms0_1 t) (hs0_1 t) (blk1 m c t) ch j]
  rw [loop_apply c (grid0.coords t) (ms0_0 t) (hs0_0 t) (ms0_1 t) (hs0_1 t) (ms0_2 t) (hs0_2 t) (ms0_3 t) (hs0_3 t)
    Variants.none none (blk0 m c t) (blk2 m c t) ch j
    (fun k => col (nbArr m c (ix3 (batchOf t) (nodeOf t j) k)))
    (fun k => (blk2_apply m c t k j).trans (clipT_apply (nbArr m c) (batchOf t) k (nodeOf t j)))
    (fun n' => (blk0_apply m c t _ n').trans (stack_lo (xArr m c) (batchOf t) ch n' (hfin c _)))
    k0_t1_loop.trips (le_of_eq trips_eq),
    trips_eq, runMax_sixteen]
  unfold nbMaxAt
  congr 1
  · congr 1
    funext k
    exact (blk0_apply m c t _ _).trans (stack_hi (xArr m c) (batchOf t) ch _)
  · refine (blk1_apply m c t ch _).trans ?_
    congr 1
    funext a
    apply Fin.ext
    match a with
    | ⟨0, _⟩ => rfl
    | ⟨1, _⟩ => rfl
    | ⟨2, _⟩ => show 512 * ((grid0.coords t) 1).val + j.val = 512 * (t.val % 8) + j.val; rw [eg]

/-- WHAT POINT `t` WRITES BACK is block `t` of `nbMax` of the arguments. -/
theorem flushed_eq (hfin : ∀ (c : Dev nD) i, ∃ r : ℝ, xArr m c i = (r : EReal)) (c : Dev nD) (t : Fin cfg0.N) :
    (dats m 0 c).flushed 3 t = ((cfg0.win 3).blk t).view.read (Elt Ideal) (nbMax (xArr m c) (nbArr m c)) := by
  obtain ⟨-, -, -, -, -, -, -, -, -, e0, e1, e2, -⟩ := idx_facts t
  rw [Cert.KernelIdeal.Value.flushed3]
  show (outsAt0 m c t : S1x128x512.Idx → EReal)
    = fun y : S1x128x512.Idx => nbMax (xArr m c) (nbArr m c) (((cfg0.win 3).blk t).view.emb y)
  funext y
  obtain ⟨z, ch, j, rfl⟩ : ∃ (z : Fin 1) (ch : Fin 128) (j : Fin 512), y = ix3 z ch j := ⟨y 0, y 1, y 2, eq_ix3 y⟩
  obtain rfl : z = 0 := Subsingleton.elim _ _
  rw [point_apply m hfin c t ch j]
  have hemb : ((cfg0.win 3).blk t).view.emb (ix3 (0 : Fin 1) ch j) = ix3 (batchOf t) ch (nodeOf t j) := by
    funext a
    apply Fin.ext
    match a with
    | ⟨0, _⟩ => show win0_3.index t (0 : Fin 3) * 1 + 1 * 0 = t.val / 8; omega
    | ⟨1, _⟩ => show win0_3.index t (1 : Fin 3) * 128 + 1 * ch.val = ch.val; omega
    | ⟨2, _⟩ => show win0_3.index t (2 : Fin 3) * 512 + 1 * j.val = 512 * (t.val % 8) + j.val; omega
  rw [hemb]
  rfl

/-- An index of the array is in point `t`'s block iff each coordinate is in the block's range on its axis. -/
theorem mem_blk (t : Fin cfg0.N) (i : S16x128x4096.Idx) :
    i ∈ ((cfg0.win 3).blk t).view.set
      ↔ ∀ a : Fin 3, win0_3.index t a * S1x128x512.size a ≤ (i a).val
          ∧ (i a).val < win0_3.index t a * S1x128x512.size a + S1x128x512.size a := by
  show i ∈ ((View.whole main_v7).slice (win0_3.rect t)).set ↔ _
  rw [View.set_slice_whole, Rect.mem_set_unit]
  exact Iff.rfl

/-- Every index of the array is in the block of the point of its batch and node tile. -/
theorem cover (i : S16x128x4096.Idx) :
    ∃ t : Fin cfg0.N, (cfg0.win 3).flush t = true ∧ i ∈ ((cfg0.win 3).blk t).view.set := by
  have h0 : (i 0).val < 16 := (i 0).isLt
  have h1 : (i 1).val < 128 := (i 1).isLt
  have h2 : (i 2).val < 4096 := (i 2).isLt
  have hN : cfg0.N = 128 := N_0
  let t : Fin cfg0.N := ⟨8 * (i 0).val + (i 2).val / 512, by rw [hN]; omega⟩
  have ht : t.val = 8 * (i 0).val + (i 2).val / 512 := rfl
  obtain ⟨-, -, -, -, -, -, -, -, -, e0, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 512 ≤ (i 2).val ∧ (i 2).val < win0_3.index t (2 : Fin 3) * 512 + 512; omega

/-- THE ARRAY after the run is `nbMax` of the arguments. -/
theorem final (hfin : ∀ (c : Dev nD) i, ∃ r : ℝ, xArr m c i = (r : EReal)) (c : Dev nD) :
    (dats m 0 c).arrAt 3 cfg0.N = nbMax (xArr m c) (nbArr m c) :=
  (dats m 0 c).arrAt_eq_of_cover 3 (nbMax (xArr m c) (nbArr m c)) (fun t _ => flushed_eq m hfin c t) cover

/-- THE RUN: every weakly fair execution of the kernel's program ends with the result array at `nbMax` of the
    arguments and the arguments unchanged. -/
theorem run (hfin : ∀ (c : Dev nD) i, ∃ r : ℝ, xArr m c i = (r : EReal)) :
    θ_run defs (onTc (τ := τ) (main (F := Ideal))) ⟨m, fun _ => 0, ρ⟩ fun r => ∀ c : Dev nD,
      r.2.mem ((c : Thread nD τ).loc main_v7) = nbMax (xArr m c) (nbArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hfin c), (h c).2⟩)
    (Cert.KernelIdeal.Value.run_blocks m ρ)

end Cert.NeighborMax

end
-- ==== Proof.lean ====
/-
  The five claims for the neighbour-maximum kernel against its gather reference.

  Both programs compute, at batch `b`, channel `c` and node `n`, the larger of `x[b, c, n]` and the largest of
  `x[b, c, ·]` over the sixteen columns the node's neighbour words select (`Cert.NeighborMax.nbMax`). The kernel
  selects a column by multiplying the stacked operand `[x ; x − x]` with a one-hot matrix built from the word
  clipped into `[0, 4095]`; the product's upper half is the selected column and its lower half is zero because
  every entry of `x` is a real number (the precondition's first conjunct). The reference wraps a negative word by
  adding 4096 and then gathers with clamped start indices; for a non-negative word (the precondition's second
  conjunct) the wrap does nothing and the clamp is the kernel's clip, so both read the same column. A running
  maximum started at `-inf` over the sixteen slots is their supremum, which is how the reference's reduction reads.

  The three frames are the generated frame certificates (the reference's: its generated run with the result
  dropped); the ideal pass rewrote nothing, so the preservation claim is trivial.
-/
import proofs.«407954_j51024211476648_3_alg».proof.Defs
import proofs.«407954_j51024211476648_3_alg».proof.Proof.Gen.Kernel
import proofs.«407954_j51024211476648_3_alg».proof.Proof.Gen.Kernel.Skeleton
import proofs.«407954_j51024211476648_3_alg».proof.Proof.Gen.Kernel.Loops
import proofs.«407954_j51024211476648_3_alg».proof.Proof.Gen.Kernel.Launch
import proofs.«407954_j51024211476648_3_alg».proof.Proof.Gen.Kernel.Points
import proofs.«407954_j51024211476648_3_alg».proof.Proof.Gen.Kernel.Frame
import proofs.«407954_j51024211476648_3_alg».proof.Proof.Gen.KernelIdeal
import proofs.«407954_j51024211476648_3_alg».proof.Proof.Gen.KernelIdeal.Skeleton
import proofs.«407954_j51024211476648_3_alg».proof.Proof.Gen.KernelIdeal.Loops
import proofs.«407954_j51024211476648_3_alg».proof.Proof.Gen.KernelIdeal.Launch
import proofs.«407954_j51024211476648_3_alg».proof.Proof.Gen.KernelIdeal.Points
import proofs.«407954_j51024211476648_3_alg».proof.Proof.Gen.KernelIdeal.Frame
import proofs.«407954_j51024211476648_3_alg».proof.Proof.Gen.ReferenceIdeal
import proofs.«407954_j51024211476648_3_alg».proof.Proof.Gen.Pre_finite_inputs
import proofs.«407954_j51024211476648_3_alg».proof.Proof.Gen.KernelIdeal.Value
import proofs.«407954_j51024211476648_3_alg».proof.Proof.Gen.ReferenceIdeal.Run
import proofs.«407954_j51024211476648_3_alg».proof.Proof.Gen.ReferenceIdeal.Read
import proofs.«407954_j51024211476648_3_alg».proof.Proof.Spec
import proofs.«407954_j51024211476648_3_alg».proof.Proof.PreFacts
import proofs.«407954_j51024211476648_3_alg».proof.Proof.RefValue
import proofs.«407954_j51024211476648_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `nbMax` of the arguments: the kernel's because `x` is real, the reference's because the
    neighbour words are non-negative; the two memories agree on the arguments. -/
theorem algebraic : Cert.algebraic_KernelIdeal_ReferenceIdeal := by
  intro m ρ m' ρ' hpre hagree
  have hf := fun c => Cert.NeighborMax.facts_of_pre _ _ (hpre c)
  refine ⟨fun c => Cert.NeighborMax.nbMax (Cert.NeighborMax.xArr m c) (Cert.NeighborMax.nbArr m c),
    Cert.NeighborMax.run m ρ (fun c i => (hf c).1 i), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  exact Cert.NeighborMax.ref_eq _ _ (fun j => (hf c).2 j)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
